-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x128 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S1x128 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S1600000x128 : Shape := ⟨2, ![1600000, 128]⟩
abbrev S1x1 : Shape := ⟨2, ![1, 1]⟩
abbrev S10000x128 : Shape := ⟨2, ![10000, 128]⟩
abbrev S10000x1 : Shape := ⟨2, ![10000, 1]⟩
abbrev S128x1 : Shape := ⟨2, ![128, 1]⟩

abbrev nBuf : Space → Nat
  | .hbm => 90
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x128, .f32⟩
  | .hbm, ⟨87, _⟩ => ⟨S1x1, .f32⟩
  | .hbm, ⟨88, _⟩ => ⟨S1600000x1, .f32⟩
  | .hbm, ⟨89, _⟩ => ⟨S1600000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x1, .f32⟩
  | .local _ .vmem, ⟨22, _⟩ => ⟨S10000x1, .f32⟩
  | .local _ .vmem, ⟨23, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S1600000x64_S1600000x64_S1600000x128_d1 : Shape.Concatenates [S1600000x64, S1600000x64] S1600000x128 1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S1600000x1_S1600000 : S1600000x1.ShapeCasts S1600000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1600000x128.size a
  hwx2_0 : ∀ i : grid2.Coords, EltTy.bits .f32 = 32 ∨ (Rect.block (s := S1600000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S1600000x1.size a
  hwx2_3 : ∀ i : grid2.Coords, EltTy.bits .f32 = 32 ∨ (Rect.block (s := S1600000x1) S10000x1.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1600000x128 : Shape := ⟨2, ![1600000, 128]⟩
abbrev S128x1 : Shape := ⟨2, ![128, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x64, .f32⟩
  | .hbm, ⟨104, _⟩ => ⟨S1600000x128, .f32⟩
  | .hbm, ⟨105, _⟩ => ⟨S128x1, .f32⟩
  | .hbm, ⟨106, _⟩ => ⟨S1600000x1, .f32⟩
  | .hbm, ⟨107, _⟩ => ⟨S1x1, .f32⟩
  | .hbm, ⟨108, _⟩ => ⟨S1600000x1, .f32⟩
  | .hbm, ⟨109, _⟩ => ⟨S1600000x1, .f32⟩
  | .hbm, ⟨110, _⟩ => ⟨S1600000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_c_10 : Ref sig .tc := ⟨.hbm, 86, rfl⟩
abbrev main_v60 : Ref sig .tc := ⟨.hbm, 87, rfl⟩
abbrev main_v61 : Ref sig .tc := ⟨.hbm, 88, rfl⟩
abbrev main_c_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  transposes_S1x128_S128x1_1_0 : S1x128.Transposes [1, 0] S128x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S1600000x128_S128x1_S1600000x1_1_0_0_1_n_n_wf : DotDims.WF S1600000x128 S128x1 S1600000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.Cells.lean ====
/-
  One output entry of each dense stage, as a function of the rows it depends on.

  A GraphSAGE layer's dense stage takes a row `mrow` of the neighbourhood means and the node's own row `xrow`,
  both of width 64, and produces for output channel `q` the value
  `max ((⟨mrow, Wl[q,:]⟩ + b[q]) + ⟨xrow, Wr[q,:]⟩) 0`: two inner products over the 64 input channels, the bias
  added to the FIRST product before the second is added (the order both programs spell), then the rectifier.
  The edge scorer's entry is one inner product of width 128 plus a scalar bias.
  Over the extended reals these are plain finite sums; nothing here needs the summands to be finite.
-/
import Idealize.ShloMosaic.PureOps.Ideal
import Idealize.ShloMosaic.PureOps.Ideal.Laws
import Idealize.ShloMosaic.Lib.ValueIdx

noncomputable section

namespace Cert.Sage

open Idealize.ShloMosaic

/-- The rectified entry of a dense GraphSAGE stage from the four rows it reads and its bias entry: the zero it is
    clamped at is kept as the float word both programs print, never evaluated. -/
def sageCell (mrow xrow wlrow wrrow : Fin 64 → EReal) (b : EReal) : EReal :=
  max (((∑ k : Fin 64, mrow k * wlrow k) + b) + ∑ k : Fin 64, xrow k * wrrow k) (Ideal.ofBits .f32 0x00000000#32)

/-- The edge scorer's entry: the inner product of an edge's concatenated feature row with the weight row, plus the bias. -/
def scoreCell (herow wrow : Fin 128 → EReal) (b : EReal) : EReal :=
  (∑ k : Fin 128, herow k * wrow k) + b

end Cert.Sage

end
-- ==== Proof.KPay.lean ====
/-
  The three kernel bodies' stored values, read at one entry of the block, over the extended reals.

  Each body loads whole blocks, casts them to bf16 (the identity on extended reals), transposes the weight block,
  multiplies on the matrix unit into a zero accumulator (a plain sum over the contracted axis), adds the bias row
  spread over the block's rows and, for the two GraphSAGE stages, the second product, and clamps at zero. At block
  entry (a, q) this is the cell function of Cells.lean over row `a` of the two node blocks and row `q` of the two
  weight blocks (a row of the UNtransposed weight: the transposition swaps the roles of the two coordinates).
-/
import proofs.«123464_j7816840478969_1_alg».proof.Proof.Gen.KernelIdeal.Skeleton
import proofs.«123464_j7816840478969_1_alg».proof.Proof.Cells
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Sage

/-! ## The operand coordinates of the two products

Each product contracts the left operand's second axis with the right operand's first. At output entry `i` and
contraction index `c` the left operand is read at `(i 0, c)` and the right at `(c, i 1)`. -/

theorem lhs_sage_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_sage_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem rhs_sage_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem rhs_sage_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem lhs_score_0 (i : S10000x1.Idx) (c : dot_S10000x128_S128x1_S10000x1_1_0_0_1_n_n.contr.Idx) :
    (dot_S10000x128_S128x1_S10000x1_1_0_0_1_n_n.lhsIdx i c 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem lhs_score_1 (i : S10000x1.Idx) (c : dot_S10000x128_S128x1_S10000x1_1_0_0_1_n_n.contr.Idx) :
    (dot_S10000x128_S128x1_S10000x1_1_0_0_1_n_n.lhsIdx i c 1).val = (c ⟨0, by decide⟩).val :=
  dot_S10000x128_S128x1_S10000x1_1_0_0_1_n_n.lhsIdx_val_of_single rfl i c
theorem rhs_score_0 (i : S10000x1.Idx) (c : dot_S10000x128_S128x1_S10000x1_1_0_0_1_n_n.contr.Idx) :
    (dot_S10000x128_S128x1_S10000x1_1_0_0_1_n_n.rhsIdx i c 0).val = (c ⟨0, by decide⟩).val :=
  dot_S10000x128_S128x1_S10000x1_1_0_0_1_n_n.rhsIdx_val_of_single rfl i c
theorem rhs_score_1 (i : S10000x1.Idx) (c : dot_S10000x128_S128x1_S10000x1_1_0_0_1_n_n.contr.Idx) :
    (dot_S10000x128_S128x1_S10000x1_1_0_0_1_n_n.rhsIdx i c 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-! ## A product into the zero accumulator, read at one entry -/

/-- The stage's product at entry (a, q): the inner product of row `a` of the left operand with column `q` of the right. -/
theorem sage_matmul_apply (x : FVec Ideal S5000x64 .bf16) (w : FVec Ideal S64x64 .bf16) (a : Fin 5000) (q : Fin 64) :
    matmul dot_S5000x64_S64x64_S5000x64_1_0_0_1_n_n none x w (constant (F := Ideal) S5000x64 .f32 0x00000000#32) (ix2 a q)
      = ∑ k : Fin 64, x (ix2 a k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 a q) ((ValueIdx.contrEquiv1 dot_S5000x64_S64x64_S5000x64_1_0_0_1_n_n 64 rfl rfl).symm k) = ix2 a k := funext fun c => Fin.ext (by
    match c with
    | ⟨0, _⟩ => exact lhs_sage_0 _ _
    | ⟨1, _⟩ => exact (lhs_sage_1 _ _).trans hk)
  have er : dot_S5000x64_S64x64_S5000x64_1_0_0_1_n_n.rhsIdx (ix2 a q) ((ValueIdx.contrEquiv1 dot_S5000x64_S64x64_S5000x64_1_0_0_1_n_n 64 rfl rfl).symm k) = ix2 k q := funext fun c => Fin.ext (by
    match c with
    | ⟨0, _⟩ => exact (rhs_sage_0 _ _).trans hk
    | ⟨1, _⟩ => exact rhs_sage_1 _ _)
  rw [el, er]

/-- The scorer's product at entry (a, u): the inner product of row `a` of the left operand with the right operand's one column. -/
theorem score_matmul_apply (x : FVec Ideal S10000x128 .bf16) (w : FVec Ideal S128x1 .bf16) (a : Fin 10000) (u : Fin 1) :
    matmul dot_S10000x128_S128x1_S10000x1_1_0_0_1_n_n none x w (constant (F := Ideal) S10000x1 .f32 0x00000000#32) (ix2 a u)
      = ∑ k : Fin 128, x (ix2 a k) * w (ix2 k u) := by
  simp only [matmul]
  rw [Ideal.matmul_constant_zero_apply, ← Equiv.sum_comp (ValueIdx.contrEquiv1 dot_S10000x128_S128x1_S10000x1_1_0_0_1_n_n 128 rfl rfl).symm]
  refine Finset.sum_congr rfl fun k _ => ?_
  have hk := ValueIdx.contrEquiv1_symm_val dot_S10000x128_S128x1_S10000x1_1_0_0_1_n_n 128 rfl rfl k
  have el : dot_S10000x128_S128x1_S10000x1_1_0_0_1_n_n.lhsIdx (ix2 a u) ((ValueIdx.contrEquiv1 dot_S10000x128_S128x1_S10000x1_1_0_0_1_n_n 128 rfl rfl).symm k) = ix2 a k := funext fun c => Fin.ext (by
    match c with
    | ⟨0, _⟩ => exact lhs_score_0 _ _
    | ⟨1, _⟩ => exact (lhs_score_1 _ _).trans hk)
  have er : dot_S10000x128_S128x1_S10000x1_1_0_0_1_n_n.rhsIdx (ix2 a u) ((ValueIdx.contrEquiv1 dot_S10000x128_S128x1_S10000x1_1_0_0_1_n_n 128 rfl rfl).symm k) = ix2 k u := funext fun c => Fin.ext (by
    match c with
    | ⟨0, _⟩ => exact (rhs_score_0 _ _).trans hk
    | ⟨1, _⟩ => exact rhs_score_1 _ _)
  rw [el, er]

/-- Stage one's stored value at block entry (a, q). -/
theorem k0_pay1_apply (mb xb : Vec Ideal S5000x64 .f32) (wl wr : Vec Ideal S64x64 .f32) (bl : Vec Ideal S1x64 .f32)
    (a : Fin 5000) (q : Fin 64) :
    k0_pay1 (F := Ideal) mb xb wl wr bl (ix2 a q)
      = sageCell (fun k => mb (ix2 a k)) (fun k => xb (ix2 a k)) (fun k => wl (ix2 q k)) (fun k => wr (ix2 q k))
          (bl (ix2 (0 : Fin 1) q)) := by
  unfold k0_pay1 sageCell
  refine (maximumf_apply _ _ _).trans ?_
  refine congrArg₂ max ?_ rfl
  refine (addf_apply _ _ _).trans (congrArg₂ (· + ·) ((addf_apply _ _ _).trans (congrArg₂ (· + ·) ?_ ?_)) ?_)
  · -- the first product: row a of the means against row q of the untransposed left weight
    simp only [shapeCast_self]
    refine (sage_matmul_apply _ _ a q).trans (Finset.sum_congr rfl fun k _ => ?_)
    exact congrArg (mb (ix2 a k) * ·) (transpose_ix2_apply _ transposes_S64x64_p1_0_S64x64 k q)
  · -- the bias row spread over the block's rows
    simp only [shapeCast_self]
    exact broadcastTo_1b_ab_apply bl broadcasts_S1x64_S5000x64 a q
  · -- the second product: row a of the node's own features against row q of the untransposed right weight
    simp only [shapeCast_self]
    refine (sage_matmul_apply _ _ a q).trans (Finset.sum_congr rfl fun k _ => ?_)
    exact congrArg (xb (ix2 a k) * ·) (transpose_ix2_apply _ transposes_S64x64_p1_0_S64x64 k q)

/-- Stage two's stored value at block entry (a, q): the same function (its text differs by one identity cast). -/
theorem k1_pay1_apply (mb xb : Vec Ideal S5000x64 .f32) (wl wr : Vec Ideal S64x64 .f32) (bl : Vec Ideal S1x64 .f32)
    (a : Fin 5000) (q : Fin 64) :
    k1_pay1 (F := Ideal) mb xb wl wr bl (ix2 a q)
      = sageCell (fun k => mb (ix2 a k)) (fun k => xb (ix2 a k)) (fun k => wl (ix2 q k)) (fun k => wr (ix2 q k))
          (bl (ix2 (0 : Fin 1) q)) := by
  unfold k1_pay1 sageCell
  refine (maximumf_apply _ _ _).trans ?_
  refine congrArg₂ max ?_ rfl
  refine (addf_apply _ _ _).trans (congrArg₂ (· + ·) ((addf_apply _ _ _).trans (congrArg₂ (· + ·) ?_ ?_)) ?_)
  · -- the first product: row a of the means against row q of the untransposed left weight
    simp only [shapeCast_self]
    refine (sage_matmul_apply _ _ a q).trans (Finset.sum_congr rfl fun k _ => ?_)
    exact congrArg (mb (ix2 a k) * ·) (transpose_ix2_apply _ transposes_S64x64_p1_0_S64x64 k q)
  · -- the bias row spread over the block's rows
    simp only [shapeCast_self]
    exact broadcastTo_1b_ab_apply bl broadcasts_S1x64_S5000x64 a q
  · -- the second product: row a of the node's own features against row q of the untransposed right weight
    simp only [shapeCast_self]
    refine (sage_matmul_apply _ _ a q).trans (Finset.sum_congr rfl fun k _ => ?_)
    exact congrArg (xb (ix2 a k) * ·) (transpose_ix2_apply _ transposes_S64x64_p1_0_S64x64 k q)

/-- The edge scorer's stored value at block entry (a, 0). -/
theorem k2_pay1_apply (he : Vec Ideal S10000x128 .f32) (w : Vec Ideal S1x128 .f32) (b : Vec Ideal S1x1 .f32)
    (a : Fin 10000) (u : Fin 1) :
    k2_pay1 (F := Ideal) he w b (ix2 a u)
      = scoreCell (fun k => he (ix2 a k)) (fun k => w (ix2 (0 : Fin 1) k)) (b (ix2 (0 : Fin 1) (0 : Fin 1))) := by
  unfold k2_pay1 scoreCell
  refine (addf_apply _ _ _).trans (congrArg₂ (· + ·) ?_ ?_)
  · -- the product: row a of the edge features against the weight's one row
    simp only [shapeCast_self]
    refine (score_matmul_apply _ _ a u).trans (Finset.sum_congr rfl fun k _ => ?_)
    have hu : u = (0 : Fin 1) := Subsingleton.elim _ _
    subst hu
    exact congrArg (he (ix2 a k) * ·) (transpose_ix2_apply _ transposes_S1x128_p1_0_S128x1 k (0 : Fin 1))
  · -- the one bias entry spread over the block
    simp only [shapeCast_self]
    have hu : u = (0 : Fin 1) := Subsingleton.elim _ _
    subst hu
    exact broadcastTo_1b_ab_apply b broadcasts_S1x1_S10000x1 a (0 : Fin 1)

end Cert.KernelIdeal.Pay

end
-- ==== Proof.KArr.lean ====
/-
  What each kernel region leaves in its output array, as ONE function of the arrays it reads, index by index.

  A GraphSAGE stage writes, at node i₀ and channel i₁, the cell of row i₀ of the mean and node arrays against row i₁ of
  the two weight arrays and entry i₁ of the bias row; the edge scorer writes, at edge i₀, the cell of row i₀ of the
  edge-feature array against the weight row and the scalar bias. No tiling appears: a block of the grid is a
  restriction of these functions to a range of rows.
-/
import proofs.«123464_j7816840478969_1_alg».proof.KernelIdeal
import proofs.«123464_j7816840478969_1_alg».proof.Proof.Cells
import Idealize.ShloMosaic.Lib.ValueIdx

noncomputable section

namespace Cert.KernelIdeal.Arr

open Cert.KernelIdeal Idealize.ShloMosaic Idealize.ShloMosaic.ValueIdx Cert.Sage

/-- A GraphSAGE stage's output array from the mean array, the node array, the two weights and the bias ROW. -/
def denseArr (mean x : S100000x64.Idx → EReal) (wl : S64x64.Idx → EReal) (bl2 : S1x64.Idx → EReal)
    (wr : S64x64.Idx → EReal) : S100000x64.Idx → EReal :=
  fun i => sageCell (fun k => mean (ix2 (i 0) k)) (fun k => x (ix2 (i 0) k)) (fun k => wl (ix2 (i 1) k))
    (fun k => wr (ix2 (i 1) k)) (bl2 (ix2 (0 : Fin 1) (i 1)))

/-- The edge scorer's output column from the edge-feature array, the weight row and the 1×1 bias. -/
def scoreArr (he : S1600000x128.Idx → EReal) (w : S1x128.Idx → EReal) (b : S1x1.Idx → EReal) :
    S1600000x1.Idx → EReal :=
  fun i => scoreCell (fun k => he (ix2 (i 0) k)) (fun k => w (ix2 (0 : Fin 1) k)) (b (ix2 (0 : Fin 1) (0 : Fin 1)))

end Cert.KernelIdeal.Arr

end
-- ==== Proof.KBlocks0.lean ====
/-
  Region 0 of the kernel program: the array its pipeline leaves behind is the first GraphSAGE stage of the mean array, the node features, the two weights and the bias row.

  The grid walks the rows in blocks; block t of every row-blocked operand starts at row t × (rows per block), the
  weights and the bias are one block each, and the body's stored block is the cell function of the loaded blocks
  (KPay.lean). So what point t writes back is the restriction of the whole-array function to block t's rows, the
  blocks cover every row, and the array after the last point is that function.
-/
import proofs.«123464_j7816840478969_1_alg».proof.Proof.Gen.KernelIdeal.Frame
import proofs.«123464_j7816840478969_1_alg».proof.Proof.KPay
import proofs.«123464_j7816840478969_1_alg».proof.Proof.KArr
import Idealize.ShloMosaic.Lib.Pipeline.Value

set_option maxRecDepth 16384

noncomputable section

namespace Cert.KernelIdeal.Blocks

open Cert.KernelIdeal Cert.KernelIdeal.Gen Cert.KernelIdeal.Arr Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, spelt as a constant function. -/
private theorem zero_off0 : (![0, 0] : Fin 2 → Nat) = fun _ => 0 :=
  funext fun a => match a with | ⟨0, _⟩ => rfl | ⟨1, _⟩ => rfl

/-- The printed index maps, decided over the grid: the two row-blocked inputs move with the output on the row axis,
    every column index is zero, the weights and the bias sit at block (0, 0), and the output's row-block index at
    point t is t itself, below the number of row blocks. -/
private theorem index_facts0 : ∀ t : Fin cfg0.N,
    win0_0.index t (0 : Fin 2) = win0_5.index t (0 : Fin 2)
    ∧ win0_1.index t (0 : Fin 2) = win0_5.index t (0 : Fin 2)
    ∧ win0_0.index t (1 : Fin 2) = 0 ∧ win0_1.index t (1 : Fin 2) = 0 ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ t.val ≤ 19 :=
  (by decide +kernel : ∀ t : Fin grid0.N, _)

/-- Row a of block t is a row of the array: 20 blocks of 5000 rows. -/
private theorem row_lt0 (t : Fin cfg0.N) (a : Fin 5000) : t.val * 5000 + a.val < 100000 := by
  obtain ⟨-, -, -, -, -, -, -, -, -, -, -, -, ht⟩ := index_facts0 t
  have ha : a.val < 5000 := a.isLt
  omega

/-- The stored value at block entry (a, q) is the whole-array function at (r, q), once row a of each row-blocked
    input block is row r of its array and the weight and bias blocks are their arrays. -/
private theorem cell_of_rows0 (mb xb : Vec Ideal S5000x64 .f32) (wl wr : Vec Ideal S64x64 .f32) (bl : Vec Ideal S1x64 .f32)
    (mean x : S100000x64.Idx → EReal) (wlA : S64x64.Idx → EReal) (blA : S1x64.Idx → EReal) (wrA : S64x64.Idx → EReal)
    (a : Fin 5000) (q : Fin 64) (r : Fin 100000)
    (hm : ∀ k : Fin 64, mb (ix2 a k) = mean (ix2 r k)) (hx : ∀ k : Fin 64, xb (ix2 a k) = x (ix2 r k))
    (hwl : ∀ k : Fin 64, wl (ix2 q k) = wlA (ix2 q k)) (hwr : ∀ k : Fin 64, wr (ix2 q k) = wrA (ix2 q k))
    (hb : bl (ix2 (0 : Fin 1) q) = blA (ix2 (0 : Fin 1) q)) :
    k0_pay1 (F := Ideal) mb xb wl wr bl (ix2 a q) = denseArr mean x wlA blA wrA (ix2 r q) := by
  rw [k0_pay1_apply]
  unfold denseArr
  show sageCell _ _ _ _ _ = sageCell (fun k => mean (ix2 r k)) (fun k => x (ix2 r k)) (fun k => wlA (ix2 q k))
    (fun k => wrA (ix2 q k)) (blA (ix2 (0 : Fin 1) q))
  simp only [hm, hx, hwl, hwr, hb]

/-- Entry (a, k) of the output's block t sits in the array at row t × 5000 + a, column k. -/
private theorem emb_out0 (t : Fin cfg0.N) (a : Fin 5000) (k : Fin 64) :
    ((cfg0.win 5).blk t).view.emb (ix2 a k) = ix2 (⟨t.val * 5000 + a.val, row_lt0 t a⟩ : Fin 100000) k := by
  obtain ⟨-, -, -, -, e5, -, -, -, -, -, -, et, -⟩ := index_facts0 t
  funext ax; apply Fin.ext
  match ax with
  | ⟨0, _⟩ => show win0_5.index t (0 : Fin 2) * 5000 + 1 * a.val = t.val * 5000 + a.val; omega
  | ⟨1, _⟩ => show win0_5.index t (1 : Fin 2) * 64 + 1 * k.val = k.val; omega

/-- The mean block's entry (a, k) at point t sits at the same row and column. -/
private theorem emb_mean0 (t : Fin cfg0.N) (a : Fin 5000) (k : Fin 64) :
    ((cfg0.win 0).blk t).view.emb (ix2 a k) = ix2 (⟨t.val * 5000 + a.val, row_lt0 t a⟩ : Fin 100000) k := by
  obtain ⟨e0, -, c0, -, -, -, -, -, -, -, -, et, -⟩ := index_facts0 t
  funext ax; apply Fin.ext
  match ax with
  | ⟨0, _⟩ => show win0_0.index t (0 : Fin 2) * 5000 + 1 * a.val = t.val * 5000 + a.val; omega
  | ⟨1, _⟩ => show win0_0.index t (1 : Fin 2) * 64 + 1 * k.val = k.val; omega

/-- So does the node block's. -/
private theorem emb_node0 (t : Fin cfg0.N) (a : Fin 5000) (k : Fin 64) :
    ((cfg0.win 1).blk t).view.emb (ix2 a k) = ix2 (⟨t.val * 5000 + a.val, row_lt0 t a⟩ : Fin 100000) k := by
  obtain ⟨-, e1, -, c1, -, -, -, -, -, -, -, et, -⟩ := index_facts0 t
  funext ax; apply Fin.ext
  match ax with
  | ⟨0, _⟩ => show win0_1.index t (0 : Fin 2) * 5000 + 1 * a.val = t.val * 5000 + a.val; omega
  | ⟨1, _⟩ => show win0_1.index t (1 : Fin 2) * 64 + 1 * k.val = k.val; omega

/-- The first weight's one block is the weight array. -/
private theorem emb_wl0 (t : Fin cfg0.N) (q k : Fin 64) :
    ((cfg0.win 2).blk t).view.emb (ix2 q k) = ix2 q k := by
  obtain ⟨-, -, -, -, -, z0, z1, -, -, -, -, -, -⟩ := index_facts0 t
  funext ax; apply Fin.ext
  match ax with
  | ⟨0, _⟩ => show win0_2.index t (0 : Fin 2) * 64 + 1 * q.val = q.val; omega
  | ⟨1, _⟩ => show win0_2.index t (1 : Fin 2) * 64 + 1 * k.val = k.val; omega

/-- The bias row's one block is the bias row. -/
private theorem emb_bias0 (t : Fin cfg0.N) (u : Fin 1) (q : Fin 64) :
    ((cfg0.win 3).blk t).view.emb (ix2 u q) = ix2 u q := by
  obtain ⟨-, -, -, -, -, -, -, z0, z1, -, -, -, -⟩ := index_facts0 t
  funext ax; apply Fin.ext
  match ax with
  | ⟨0, _⟩ => show win0_3.index t (0 : Fin 2) * 1 + 1 * u.val = u.val; omega
  | ⟨1, _⟩ => show win0_3.index t (1 : Fin 2) * 64 + 1 * q.val = q.val; omega

/-- The second weight's one block is the weight array. -/
private theorem emb_wr0 (t : Fin cfg0.N) (q k : Fin 64) :
    ((cfg0.win 4).blk t).view.emb (ix2 q k) = ix2 q k := by
  obtain ⟨-, -, -, -, -, -, -, -, -, z0, z1, -, -⟩ := index_facts0 t
  funext ax; apply Fin.ext
  match ax with
  | ⟨0, _⟩ => show win0_4.index t (0 : Fin 2) * 64 + 1 * q.val = q.val; omega
  | ⟨1, _⟩ => show win0_4.index t (1 : Fin 2) * 64 + 1 * k.val = k.val; omega

/-- What point t writes back is block t of the whole-array function. -/
theorem flushed0_eq (c : Dev nD) (t : Fin cfg0.N) :
    (dat0 (F := Ideal) V c).flushed 5 t = ((cfg0.win 5).blk t).view.read (Elt Ideal)
      (denseArr (V c main_v22) (V c main_arg0) (V c main_arg2) (V c main_v23) (V c main_arg4)) := by
  show (cfg0.win 5).cut (grid0.coords t) ((dat0 V c).after 5 t) = _
  rw [after0_5]
  unfold out0_5
  rw [View.canon_unit_zero zero_off0]
  simp only [View.ld_unit_zero (S := S5000x64) zero_off0, View.ld_unit_zero (S := S64x64) zero_off0,
    View.ld_unit_zero (S := S1x64) zero_off0]
  funext j
  obtain ⟨a, q, rfl⟩ : ∃ (a : Fin 5000) (q : Fin 64), j = ix2 a q := ⟨j 0, j 1, eq_ix2 j⟩
  show k0_pay1 (F := Ideal) (iblk0 V c 0 t) (iblk0 V c 1 t) (iblk0 V c 2 t) (iblk0 V c 4 t) (iblk0 V c 3 t) (ix2 a q)
    = denseArr (V c main_v22) (V c main_arg0) (V c main_arg2) (V c main_v23) (V c main_arg4)
        (((cfg0.win 5).blk t).view.emb (ix2 a q))
  rw [emb_out0 t a q]
  exact cell_of_rows0 (iblk0 V c 0 t) (iblk0 V c 1 t) (iblk0 V c 2 t) (iblk0 V c 4 t) (iblk0 V c 3 t)
    (V c main_v22) (V c main_arg0) (V c main_arg2) (V c main_v23) (V c main_arg4) a q
    (⟨t.val * 5000 + a.val, row_lt0 t a⟩ : Fin 100000)
    (fun k => by
      show V c main_v22 (((cfg0.win 0).blk t).view.emb (ix2 a k)) = _
      rw [emb_mean0 t a k])
    (fun k => by
      show V c main_arg0 (((cfg0.win 1).blk t).view.emb (ix2 a k)) = _
      rw [emb_node0 t a k])
    (fun k => by
      show V c main_arg2 (((cfg0.win 2).blk t).view.emb (ix2 q k)) = _
      rw [emb_wl0 t q k])
    (fun k => by
      show V c main_arg4 (((cfg0.win 4).blk t).view.emb (ix2 q k)) = _
      rw [emb_wr0 t q k])
    (by
      show V c main_v23 (((cfg0.win 3).blk t).view.emb (ix2 (0 : Fin 1) q)) = _
      rw [emb_bias0 t 0 q])

/-- An index of the array is in point t's block iff each coordinate is in the block's range on its axis. -/
theorem mem_blk0 (t : Fin cfg0.N) (i : S100000x64.Idx) :
    i ∈ ((cfg0.win 5).blk t).view.set ↔ ∀ ax : Fin 2, win0_5.index t ax * S5000x64.size ax ≤ (i ax).val
      ∧ (i ax).val < win0_5.index t ax * S5000x64.size ax + S5000x64.size ax := by
  show i ∈ ((View.whole main_v24).slice (win0_5.rect t)).set ↔ _
  rw [View.set_slice_whole, Rect.mem_set_unit]
  exact Iff.rfl

/-- Every index of the array is in a flushing point's block: row r is in block r / 5000. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := by show (i 0).val / 5000 < 20; omega
  obtain ⟨-, -, -, -, e5, -, -, -, -, -, -, et, -⟩ := index_facts0 ⟨(i 0).val / 5000, hN⟩
  have et' : win0_5.index ⟨(i 0).val / 5000, hN⟩ (0 : Fin 2) = (i 0).val / 5000 := et
  refine ⟨⟨(i 0).val / 5000, hN⟩, flush0_5 _, ?_⟩
  rw [mem_blk0]
  intro ax
  match ax with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- Whatever the buffers hold when the region is entered, its output array ends as the whole-array function of the
    arrays it reads there. -/
theorem final0 (c : Dev nD) :
    (dat0 (F := Ideal) V c).arrAt 5 cfg0.N = denseArr (V c main_v22) (V c main_arg0) (V c main_arg2) (V c main_v23) (V c main_arg4) := by
  exact (dat0 (F := Ideal) V c).arrAt_eq_of_cover 5
    (denseArr (V c main_v22) (V c main_arg0) (V c main_arg2) (V c main_v23) (V c main_arg4))
    (fun t _ => flushed0_eq V c t) (fun i => cover0 i)

end Cert.KernelIdeal.Blocks

end
-- ==== Proof.KBlocks1.lean ====
/-
  Region 1 of the kernel program: the array its pipeline leaves behind is the second GraphSAGE stage of the mean array, the hidden features, the two weights and the bias row.

  The grid walks the rows in blocks; block t of every row-blocked operand starts at row t × (rows per block), the
  weights and the bias are one block each, and the body's stored block is the cell function of the loaded blocks
  (KPay.lean). So what point t writes back is the restriction of the whole-array function to block t's rows, the
  blocks cover every row, and the array after the last point is that function.
-/
import proofs.«123464_j7816840478969_1_alg».proof.Proof.Gen.KernelIdeal.Frame
import proofs.«123464_j7816840478969_1_alg».proof.Proof.KPay
import proofs.«123464_j7816840478969_1_alg».proof.Proof.KArr
import Idealize.ShloMosaic.Lib.Pipeline.Value

set_option maxRecDepth 16384

noncomputable section

namespace Cert.KernelIdeal.Blocks

open Cert.KernelIdeal Cert.KernelIdeal.Gen Cert.KernelIdeal.Arr Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, spelt as a constant function. -/
private theorem zero_off1 : (![0, 0] : Fin 2 → Nat) = fun _ => 0 :=
  funext fun a => match a with | ⟨0, _⟩ => rfl | ⟨1, _⟩ => rfl

/-- The printed index maps, decided over the grid: the mean and hidden-feature blocks move with the output on the
    row axis, every column index is zero, the weights and the bias sit at block (0, 0), and the output's row-block
    index at point t is t itself, below the number of row blocks. -/
private theorem index_facts1 : ∀ t : Fin cfg1.N,
    win1_0.index t (0 : Fin 2) = win1_5.index t (0 : Fin 2)
    ∧ win1_1.index t (0 : Fin 2) = win1_5.index t (0 : Fin 2)
    ∧ win1_0.index t (1 : Fin 2) = 0 ∧ win1_1.index t (1 : Fin 2) = 0 ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ t.val ≤ 19 :=
  (by decide +kernel : ∀ t : Fin grid1.N, _)

/-- Row a of block t is a row of the array: 20 blocks of 5000 rows. -/
private theorem row_lt1 (t : Fin cfg1.N) (a : Fin 5000) : t.val * 5000 + a.val < 100000 := by
  obtain ⟨-, -, -, -, -, -, -, -, -, -, -, -, ht⟩ := index_facts1 t
  have ha : a.val < 5000 := a.isLt
  omega

/-- The stored value at block entry (a, q) is the whole-array function at (r, q), once row a of each row-blocked
    input block is row r of its array and the weight and bias blocks are their arrays. -/
private theorem cell_of_rows1 (mb xb : Vec Ideal S5000x64 .f32) (wl wr : Vec Ideal S64x64 .f32) (bl : Vec Ideal S1x64 .f32)
    (mean x : S100000x64.Idx → EReal) (wlA : S64x64.Idx → EReal) (blA : S1x64.Idx → EReal) (wrA : S64x64.Idx → EReal)
    (a : Fin 5000) (q : Fin 64) (r : Fin 100000)
    (hm : ∀ k : Fin 64, mb (ix2 a k) = mean (ix2 r k)) (hx : ∀ k : Fin 64, xb (ix2 a k) = x (ix2 r k))
    (hwl : ∀ k : Fin 64, wl (ix2 q k) = wlA (ix2 q k)) (hwr : ∀ k : Fin 64, wr (ix2 q k) = wrA (ix2 q k))
    (hb : bl (ix2 (0 : Fin 1) q) = blA (ix2 (0 : Fin 1) q)) :
    k1_pay1 (F := Ideal) mb xb wl wr bl (ix2 a q) = denseArr mean x wlA blA wrA (ix2 r q) := by
  rw [k1_pay1_apply]
  unfold denseArr
  show sageCell _ _ _ _ _ = sageCell (fun k => mean (ix2 r k)) (fun k => x (ix2 r k)) (fun k => wlA (ix2 q k))
    (fun k => wrA (ix2 q k)) (blA (ix2 (0 : Fin 1) q))
  simp only [hm, hx, hwl, hwr, hb]

/-- Entry (a, k) of the output's block t sits in the array at row t × 5000 + a, column k. -/
private theorem emb_out1 (t : Fin cfg1.N) (a : Fin 5000) (k : Fin 64) :
    ((cfg1.win 5).blk t).view.emb (ix2 a k) = ix2 (⟨t.val * 5000 + a.val, row_lt1 t a⟩ : Fin 100000) k := by
  obtain ⟨-, -, -, -, e5, -, -, -, -, -, -, et, -⟩ := index_facts1 t
  funext ax; apply Fin.ext
  match ax with
  | ⟨0, _⟩ => show win1_5.index t (0 : Fin 2) * 5000 + 1 * a.val = t.val * 5000 + a.val; omega
  | ⟨1, _⟩ => show win1_5.index t (1 : Fin 2) * 64 + 1 * k.val = k.val; omega

/-- The mean block's entry (a, k) at point t sits at the same row and column. -/
private theorem emb_mean1 (t : Fin cfg1.N) (a : Fin 5000) (k : Fin 64) :
    ((cfg1.win 0).blk t).view.emb (ix2 a k) = ix2 (⟨t.val * 5000 + a.val, row_lt1 t a⟩ : Fin 100000) k := by
  obtain ⟨e0, -, c0, -, -, -, -, -, -, -, -, et, -⟩ := index_facts1 t
  funext ax; apply Fin.ext
  match ax with
  | ⟨0, _⟩ => show win1_0.index t (0 : Fin 2) * 5000 + 1 * a.val = t.val * 5000 + a.val; omega
  | ⟨1, _⟩ => show win1_0.index t (1 : Fin 2) * 64 + 1 * k.val = k.val; omega

/-- So does the hidden-feature block's. -/
private theorem emb_hidden1 (t : Fin cfg1.N) (a : Fin 5000) (k : Fin 64) :
    ((cfg1.win 1).blk t).view.emb (ix2 a k) = ix2 (⟨t.val * 5000 + a.val, row_lt1 t a⟩ : Fin 100000) k := by
  obtain ⟨-, e1, -, c1, -, -, -, -, -, -, -, et, -⟩ := index_facts1 t
  funext ax; apply Fin.ext
  match ax with
  | ⟨0, _⟩ => show win1_1.index t (0 : Fin 2) * 5000 + 1 * a.val = t.val * 5000 + a.val; omega
  | ⟨1, _⟩ => show win1_1.index t (1 : Fin 2) * 64 + 1 * k.val = k.val; omega

/-- The first weight's one block is the weight array. -/
private theorem emb_wl1 (t : Fin cfg1.N) (q k : Fin 64) :
    ((cfg1.win 2).blk t).view.emb (ix2 q k) = ix2 q k := by
  obtain ⟨-, -, -, -, -, z0, z1, -, -, -, -, -, -⟩ := index_facts1 t
  funext ax; apply Fin.ext
  match ax with
  | ⟨0, _⟩ => show win1_2.index t (0 : Fin 2) * 64 + 1 * q.val = q.val; omega
  | ⟨1, _⟩ => show win1_2.index t (1 : Fin 2) * 64 + 1 * k.val = k.val; omega

/-- The bias row's one block is the bias row. -/
private theorem emb_bias1 (t : Fin cfg1.N) (u : Fin 1) (q : Fin 64) :
    ((cfg1.win 3).blk t).view.emb (ix2 u q) = ix2 u q := by
  obtain ⟨-, -, -, -, -, -, -, z0, z1, -, -, -, -⟩ := index_facts1 t
  funext ax; apply Fin.ext
  match ax with
  | ⟨0, _⟩ => show win1_3.index t (0 : Fin 2) * 1 + 1 * u.val = u.val; omega
  | ⟨1, _⟩ => show win1_3.index t (1 : Fin 2) * 64 + 1 * q.val = q.val; omega

/-- The second weight's one block is the weight array. -/
private theorem emb_wr1 (t : Fin cfg1.N) (q k : Fin 64) :
    ((cfg1.win 4).blk t).view.emb (ix2 q k) = ix2 q k := by
  obtain ⟨-, -, -, -, -, -, -, -, -, z0, z1, -, -⟩ := index_facts1 t
  funext ax; apply Fin.ext
  match ax with
  | ⟨0, _⟩ => show win1_4.index t (0 : Fin 2) * 64 + 1 * q.val = q.val; omega
  | ⟨1, _⟩ => show win1_4.index t (1 : Fin 2) * 64 + 1 * k.val = k.val; omega

/-- What point t writes back is block t of the whole-array function. -/
theorem flushed1_eq (c : Dev nD) (t : Fin cfg1.N) :
    (dat1 (F := Ideal) V c).flushed 5 t = ((cfg1.win 5).blk t).view.read (Elt Ideal)
      (denseArr (V c main_v43) (V c main_v24) (V c main_arg5) (V c main_v44) (V c main_arg7)) := by
  show (cfg1.win 5).cut (grid1.coords t) ((dat1 V c).after 5 t) = _
  rw [after1_5]
  unfold out1_5
  rw [View.canon_unit_zero zero_off1]
  simp only [View.ld_unit_zero (S := S5000x64) zero_off1, View.ld_unit_zero (S := S64x64) zero_off1,
    View.ld_unit_zero (S := S1x64) zero_off1]
  funext j
  obtain ⟨a, q, rfl⟩ : ∃ (a : Fin 5000) (q : Fin 64), j = ix2 a q := ⟨j 0, j 1, eq_ix2 j⟩
  show k1_pay1 (F := Ideal) (iblk1 V c 0 t) (iblk1 V c 1 t) (iblk1 V c 2 t) (iblk1 V c 4 t) (iblk1 V c 3 t) (ix2 a q)
    = denseArr (V c main_v43) (V c main_v24) (V c main_arg5) (V c main_v44) (V c main_arg7)
        (((cfg1.win 5).blk t).view.emb (ix2 a q))
  rw [emb_out1 t a q]
  exact cell_of_rows1 (iblk1 V c 0 t) (iblk1 V c 1 t) (iblk1 V c 2 t) (iblk1 V c 4 t) (iblk1 V c 3 t)
    (V c main_v43) (V c main_v24) (V c main_arg5) (V c main_v44) (V c main_arg7) a q
    (⟨t.val * 5000 + a.val, row_lt1 t a⟩ : Fin 100000)
    (fun k => by
      show V c main_v43 (((cfg1.win 0).blk t).view.emb (ix2 a k)) = _
      rw [emb_mean1 t a k])
    (fun k => by
      show V c main_v24 (((cfg1.win 1).blk t).view.emb (ix2 a k)) = _
      rw [emb_hidden1 t a k])
    (fun k => by
      show V c main_arg5 (((cfg1.win 2).blk t).view.emb (ix2 q k)) = _
      rw [emb_wl1 t q k])
    (fun k => by
      show V c main_arg7 (((cfg1.win 4).blk t).view.emb (ix2 q k)) = _
      rw [emb_wr1 t q k])
    (by
      show V c main_v44 (((cfg1.win 3).blk t).view.emb (ix2 (0 : Fin 1) q)) = _
      rw [emb_bias1 t 0 q])

/-- An index of the array is in point t's block iff each coordinate is in the block's range on its axis. -/
theorem mem_blk1 (t : Fin cfg1.N) (i : S100000x64.Idx) :
    i ∈ ((cfg1.win 5).blk t).view.set ↔ ∀ ax : Fin 2, win1_5.index t ax * S5000x64.size ax ≤ (i ax).val
      ∧ (i ax).val < win1_5.index t ax * S5000x64.size ax + S5000x64.size ax := by
  show i ∈ ((View.whole main_v45).slice (win1_5.rect t)).set ↔ _
  rw [View.set_slice_whole, Rect.mem_set_unit]
  exact Iff.rfl

/-- Every index of the array is in a flushing point's block: row r is in block r / 5000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := by show (i 0).val / 5000 < 20; omega
  obtain ⟨-, -, -, -, e5, -, -, -, -, -, -, et, -⟩ := index_facts1 ⟨(i 0).val / 5000, hN⟩
  have et' : win1_5.index ⟨(i 0).val / 5000, hN⟩ (0 : Fin 2) = (i 0).val / 5000 := et
  refine ⟨⟨(i 0).val / 5000, hN⟩, flush1_5 _, ?_⟩
  rw [mem_blk1]
  intro ax
  match ax with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    omega
  | ⟨1, _⟩ =>
    show win1_5.index ⟨(i 0).val / 5000, hN⟩ (1 : Fin 2) * 64 ≤ (i 1).val
      ∧ (i 1).val < win1_5.index ⟨(i 0).val / 5000, hN⟩ (1 : Fin 2) * 64 + 64
    omega

/-- Whatever the buffers hold when the region is entered, its output array ends as the whole-array function of the
    arrays it reads there. -/
theorem final1 (c : Dev nD) :
    (dat1 (F := Ideal) V c).arrAt 5 cfg1.N = denseArr (V c main_v43) (V c main_v24) (V c main_arg5) (V c main_v44) (V c main_arg7) := by
  exact (dat1 (F := Ideal) V c).arrAt_eq_of_cover 5
    (denseArr (V c main_v43) (V c main_v24) (V c main_arg5) (V c main_v44) (V c main_arg7))
    (fun t _ => flushed1_eq V c t) (fun i => cover1 i)

end Cert.KernelIdeal.Blocks

end
-- ==== Proof.KBlocks2.lean ====
/-
  Region 2 of the kernel program: the array its pipeline leaves behind is the edge scorer of the edge-feature array, the weight row and the bias.

  The grid walks the rows in blocks; block t of every row-blocked operand starts at row t × (rows per block), the
  weights and the bias are one block each, and the body's stored block is the cell function of the loaded blocks
  (KPay.lean). So what point t writes back is the restriction of the whole-array function to block t's rows, the
  blocks cover every row, and the array after the last point is that function.
-/
import proofs.«123464_j7816840478969_1_alg».proof.Proof.Gen.KernelIdeal.Frame
import proofs.«123464_j7816840478969_1_alg».proof.Proof.KPay
import proofs.«123464_j7816840478969_1_alg».proof.Proof.KArr
import Idealize.ShloMosaic.Lib.Pipeline.Value

set_option maxRecDepth 16384

noncomputable section

namespace Cert.KernelIdeal.Blocks

open Cert.KernelIdeal Cert.KernelIdeal.Gen Cert.KernelIdeal.Arr Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, spelt as a constant function. -/
private theorem zero_off2 : (![0, 0] : Fin 2 → Nat) = fun _ => 0 :=
  funext fun a => match a with | ⟨0, _⟩ => rfl | ⟨1, _⟩ => rfl

/-- The printed index maps, decided over the grid: the edge-feature block moves with the output on the row axis,
    every column index is zero, the weight row and the bias sit at block (0, 0), and the output's row-block index at
    point t is t itself, below the number of row blocks. -/
private theorem index_facts2 : ∀ t : Fin cfg2.N,
    win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ t.val ≤ 159 :=
  (by decide +kernel : ∀ t : Fin grid2.N, _)

/-- Row a of block t is a row of the array: 160 blocks of 10000 rows. -/
private theorem row_lt2 (t : Fin cfg2.N) (a : Fin 10000) : t.val * 10000 + a.val < 1600000 := by
  obtain ⟨-, -, -, -, -, -, -, -, ht⟩ := index_facts2 t
  have ha : a.val < 10000 := a.isLt
  omega

/-- The stored value at block entry (a, u) is the whole-array function at (r, u), once row a of the edge-feature
    block is row r of its array and the weight and bias blocks are their arrays. -/
private theorem cell_of_rows2 (he : Vec Ideal S10000x128 .f32) (w : Vec Ideal S1x128 .f32) (b : Vec Ideal S1x1 .f32)
    (heA : S1600000x128.Idx → EReal) (wA : S1x128.Idx → EReal) (bA : S1x1.Idx → EReal)
    (a : Fin 10000) (u : Fin 1) (r : Fin 1600000)
    (hh : ∀ k : Fin 128, he (ix2 a k) = heA (ix2 r k))
    (hw : ∀ k : Fin 128, w (ix2 (0 : Fin 1) k) = wA (ix2 (0 : Fin 1) k))
    (hb : b (ix2 (0 : Fin 1) (0 : Fin 1)) = bA (ix2 (0 : Fin 1) (0 : Fin 1))) :
    k2_pay1 (F := Ideal) he w b (ix2 a u) = scoreArr heA wA bA (ix2 r u) := by
  rw [k2_pay1_apply]
  unfold scoreArr
  show scoreCell _ _ _ = scoreCell (fun k => heA (ix2 r k)) (fun k => wA (ix2 (0 : Fin 1) k))
    (bA (ix2 (0 : Fin 1) (0 : Fin 1)))
  simp only [hh, hw, hb]

/-- Entry (a, u) of the output's block t sits in the array at row t × 10000 + a, column u. -/
private theorem emb_out2 (t : Fin cfg2.N) (a : Fin 10000) (u : Fin 1) :
    ((cfg2.win 3).blk t).view.emb (ix2 a u) = ix2 (⟨t.val * 10000 + a.val, row_lt2 t a⟩ : Fin 1600000) u := by
  obtain ⟨-, -, c3, -, -, -, -, et, -⟩ := index_facts2 t
  funext ax; apply Fin.ext
  match ax with
  | ⟨0, _⟩ => show win2_3.index t (0 : Fin 2) * 10000 + 1 * a.val = t.val * 10000 + a.val; omega
  | ⟨1, _⟩ => show win2_3.index t (1 : Fin 2) * 1 + 1 * u.val = u.val; omega

/-- The edge-feature block's entry (a, k) at point t sits at the same row, column k. -/
private theorem emb_feat2 (t : Fin cfg2.N) (a : Fin 10000) (k : Fin 128) :
    ((cfg2.win 0).blk t).view.emb (ix2 a k) = ix2 (⟨t.val * 10000 + a.val, row_lt2 t a⟩ : Fin 1600000) k := by
  obtain ⟨e0, c0, -, -, -, -, -, et, -⟩ := index_facts2 t
  funext ax; apply Fin.ext
  match ax with
  | ⟨0, _⟩ => show win2_0.index t (0 : Fin 2) * 10000 + 1 * a.val = t.val * 10000 + a.val; omega
  | ⟨1, _⟩ => show win2_0.index t (1 : Fin 2) * 128 + 1 * k.val = k.val; omega

/-- The weight row's one block is the weight row. -/
private theorem emb_weight2 (t : Fin cfg2.N) (u : Fin 1) (k : Fin 128) :
    ((cfg2.win 1).blk t).view.emb (ix2 u k) = ix2 u k := by
  obtain ⟨-, -, -, z0, z1, -, -, -, -⟩ := index_facts2 t
  funext ax; apply Fin.ext
  match ax with
  | ⟨0, _⟩ => show win2_1.index t (0 : Fin 2) * 1 + 1 * u.val = u.val; omega
  | ⟨1, _⟩ => show win2_1.index t (1 : Fin 2) * 128 + 1 * k.val = k.val; omega

/-- The bias's one block is the bias. -/
private theorem emb_bias2 (t : Fin cfg2.N) (u v : Fin 1) :
    ((cfg2.win 2).blk t).view.emb (ix2 u v) = ix2 u v := by
  obtain ⟨-, -, -, -, -, z0, z1, -, -⟩ := index_facts2 t
  funext ax; apply Fin.ext
  match ax with
  | ⟨0, _⟩ => show win2_2.index t (0 : Fin 2) * 1 + 1 * u.val = u.val; omega
  | ⟨1, _⟩ => show win2_2.index t (1 : Fin 2) * 1 + 1 * v.val = v.val; omega

/-- What point t writes back is block t of the whole-array function. -/
theorem flushed2_eq (c : Dev nD) (t : Fin cfg2.N) :
    (dat2 (F := Ideal) V c).flushed 3 t = ((cfg2.win 3).blk t).view.read (Elt Ideal)
      (scoreArr (V c main_v60) (V c main_arg8) (V c main_v61)) := by
  show (cfg2.win 3).cut (grid2.coords t) ((dat2 V c).after 3 t) = _
  rw [after2_3]
  unfold out2_3
  rw [View.canon_unit_zero zero_off2]
  simp only [View.ld_unit_zero (S := S10000x128) zero_off2, View.ld_unit_zero (S := S1x128) zero_off2,
    View.ld_unit_zero (S := S1x1) zero_off2]
  funext j
  obtain ⟨a, u, rfl⟩ : ∃ (a : Fin 10000) (u : Fin 1), j = ix2 a u := ⟨j 0, j 1, eq_ix2 j⟩
  show k2_pay1 (F := Ideal) (iblk2 V c 0 t) (iblk2 V c 1 t) (iblk2 V c 2 t) (ix2 a u)
    = scoreArr (V c main_v60) (V c main_arg8) (V c main_v61) (((cfg2.win 3).blk t).view.emb (ix2 a u))
  rw [emb_out2 t a u]
  exact cell_of_rows2 (iblk2 V c 0 t) (iblk2 V c 1 t) (iblk2 V c 2 t)
    (V c main_v60) (V c main_arg8) (V c main_v61) a u
    (⟨t.val * 10000 + a.val, row_lt2 t a⟩ : Fin 1600000)
    (fun k => by
      show V c main_v60 (((cfg2.win 0).blk t).view.emb (ix2 a k)) = _
      rw [emb_feat2 t a k])
    (fun k => by
      show V c main_arg8 (((cfg2.win 1).blk t).view.emb (ix2 (0 : Fin 1) k)) = _
      rw [emb_weight2 t 0 k])
    (by
      show V c main_v61 (((cfg2.win 2).blk t).view.emb (ix2 (0 : Fin 1) (0 : Fin 1))) = _
      rw [emb_bias2 t 0 0])

/-- An index of the array is in point t's block iff each coordinate is in the block's range on its axis. -/
theorem mem_blk2 (t : Fin cfg2.N) (i : S1600000x1.Idx) :
    i ∈ ((cfg2.win 3).blk t).view.set ↔ ∀ ax : Fin 2, win2_3.index t ax * S10000x1.size ax ≤ (i ax).val
      ∧ (i ax).val < win2_3.index t ax * S10000x1.size ax + S10000x1.size ax := by
  show i ∈ ((View.whole main_v62).slice (win2_3.rect t)).set ↔ _
  rw [View.set_slice_whole, Rect.mem_set_unit]
  exact Iff.rfl

/-- Every index of the array is in a flushing point's block: row r is in block r / 10000. -/
theorem cover2 (i : S1600000x1.Idx) :
    ∃ t : Fin cfg2.N, (cfg2.win 3).flush t = true ∧ i ∈ ((cfg2.win 3).blk t).view.set := by
  have hi0 : (i 0).val < 1600000 := (i 0).isLt
  have hi1 : (i 1).val < 1 := (i 1).isLt
  have hN : (i 0).val / 10000 < cfg2.N := by show (i 0).val / 10000 < 160; omega
  obtain ⟨-, -, c3, -, -, -, -, et, -⟩ := index_facts2 ⟨(i 0).val / 10000, hN⟩
  have et' : win2_3.index ⟨(i 0).val / 10000, hN⟩ (0 : Fin 2) = (i 0).val / 10000 := et
  refine ⟨⟨(i 0).val / 10000, hN⟩, flush2_3 _, ?_⟩
  rw [mem_blk2]
  intro ax
  match ax with
  | ⟨0, _⟩ =>
    show win2_3.index ⟨(i 0).val / 10000, hN⟩ (0 : Fin 2) * 10000 ≤ (i 0).val
      ∧ (i 0).val < win2_3.index ⟨(i 0).val / 10000, hN⟩ (0 : Fin 2) * 10000 + 10000
    omega
  | ⟨1, _⟩ =>
    show win2_3.index ⟨(i 0).val / 10000, hN⟩ (1 : Fin 2) * 1 ≤ (i 1).val
      ∧ (i 1).val < win2_3.index ⟨(i 0).val / 10000, hN⟩ (1 : Fin 2) * 1 + 1
    omega

/-- Whatever the buffers hold when the region is entered, its output array ends as the whole-array function of the
    arrays it reads there. -/
theorem final2 (c : Dev nD) :
    (dat2 (F := Ideal) V c).arrAt 3 cfg2.N = scoreArr (V c main_v60) (V c main_arg8) (V c main_v61) := by
  exact (dat2 (F := Ideal) V c).arrAt_eq_of_cover 3
    (scoreArr (V c main_v60) (V c main_arg8) (V c main_v61))
    (fun t _ => flushed2_eq V c t) (fun i => cover2 i)

end Cert.KernelIdeal.Blocks

end
-- ==== Proof.RefDense.lean ====
/-
  The reference's two dense stages as functions of their operands, and their values at one entry.

  `dense` is the reference's spelling of a GraphSAGE stage after the aggregation: the mean rows times the transposed
  left weight, plus the bias spread over the rows, plus the node rows times the transposed right weight, clamped at
  zero. `scoreRef` is the scorer: the concatenated edge rows times the transposed weight row plus the scalar bias. At
  an entry each host product is a sum over the contracted axis, the transposition swaps the weight's coordinates,
  and the two-step broadcast of the bias reads its one varying coordinate: the cell functions of Cells.lean.
-/
import proofs.«123464_j7816840478969_1_alg».proof.ReferenceIdeal
import proofs.«123464_j7816840478969_1_alg».proof.Proof.Gen.ReferenceIdeal
import proofs.«123464_j7816840478969_1_alg».proof.Proof.Cells
import Idealize.ShloMosaic.Lib.Pipeline.Value
import Idealize.ShloMosaic.Lib.ValueIdx
import Idealize.ShloMosaic.Lib.ValueLayout
import Idealize.ShloMosaic.PureOps.Ideal.Laws

noncomputable section

namespace Cert.Sage

open Cert.ReferenceIdeal Cert.ReferenceIdeal.Facts₀ Idealize.ShloMosaic Idealize.ShloMosaic.ValueIdx

/-- A GraphSAGE stage after the aggregation, as the reference spells it. -/
def dense (mean x : FVec Ideal S100000x64 .f32) (wl : FVec Ideal S64x64 .f32) (b : FVec Ideal S64 .f32)
    (wr : FVec Ideal S64x64 .f32) : FVec Ideal S100000x64 .f32 :=
  maximumf
    (addf
      (addf (Host.dotGeneral dot_S100000x64_S64x64_S100000x64_1_0_0_1_n_n none mean
              (transpose S64x64 [1, 0] wl transposes_S64x64_S64x64_1_0))
            (broadcastInDim S100000x64 ![0, 1] bcast_S1x64_S100000x64_0_1 (broadcastInDim S1x64 ![1] bcast_S64_S1x64_1 b)))
      (Host.dotGeneral dot_S100000x64_S64x64_S100000x64_1_0_0_1_n_n none x
        (transpose S64x64 [1, 0] wr transposes_S64x64_S64x64_1_0)))
    (broadcastInDim S100000x64 ![] bcast_S_S100000x64 (constant S_ .f32 0x00000000#32))

/-- The edge scorer before the final flattening, as the reference spells it. -/
def scoreRef (he : FVec Ideal S1600000x128 .f32) (wlin : FVec Ideal S1x128 .f32) (blin : FVec Ideal S1 .f32) :
    FVec Ideal S1600000x1 .f32 :=
  addf (Host.dotGeneral dot_S1600000x128_S128x1_S1600000x1_1_0_0_1_n_n none he
          (transpose S128x1 [1, 0] wlin transposes_S1x128_S128x1_1_0))
       (broadcastInDim S1600000x1 ![0, 1] bcast_S1x1_S1600000x1_0_1 (broadcastInDim S1x1 ![1] bcast_S1_S1x1_1 blin))

/-! ## The stage's host product at an entry

The stage's product contracts the left operand's second axis with the right operand's first. Its record's two index
maps, read one axis at a time: the left index keeps the output's row and takes the contraction's coordinate as its
column; the right index takes the contraction's coordinate as its row and keeps the output's column. -/

/-- The left index of the stage's product has the output's row. -/
private theorem stageDot_lhs_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- The left index of the stage's product has the contraction's coordinate as its column. -/
private theorem stageDot_lhs_contr (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right index of the stage's product has the contraction's coordinate as its row. -/
private theorem stageDot_rhs_contr (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- The right index of the stage's product has the output's column. -/
private theorem stageDot_rhs_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The stage's product at row p, column q: the sum over the 64 contracted channels of the left operand's row p times the
    right operand's column q. -/
private theorem stageDot_apply (y0 : FVec Ideal S100000x64 .f32) (y1 : FVec Ideal S64x64 .f32) (p : Fin 100000) (q : Fin 64) :
    Host.dotGeneral dot_S100000x64_S64x64_S100000x64_1_0_0_1_n_n none y0 y1 (ix2 p q) = ∑ k : Fin 64, y0 (ix2 p k) * y1 (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 p q) ((ValueIdx.contrEquiv1 dot_S100000x64_S64x64_S100000x64_1_0_0_1_n_n 64 rfl rfl).symm k) = ix2 p k := funext fun a => Fin.ext (by
    match a with
    | ⟨0, _⟩ => exact stageDot_lhs_row _ _
    | ⟨1, _⟩ => exact (stageDot_lhs_contr _ _).trans hk)
  have er : dot_S100000x64_S64x64_S100000x64_1_0_0_1_n_n.rhsIdx (ix2 p q) ((ValueIdx.contrEquiv1 dot_S100000x64_S64x64_S100000x64_1_0_0_1_n_n 64 rfl rfl).symm k) = ix2 k q := funext fun a => Fin.ext (by
    match a with
    | ⟨0, _⟩ => exact (stageDot_rhs_contr _ _).trans hk
    | ⟨1, _⟩ => exact stageDot_rhs_col _ _)
  rw [el, er]

/-! ## The scorer's host product at an entry

The same reading for the scorer's record, whose contraction has 128 coordinates and whose output has one column. -/

/-- The left index of the scorer's product has the output's row. -/
private theorem scoreDot_lhs_row (i : S1600000x1.Idx) (q : dot_S1600000x128_S128x1_S1600000x1_1_0_0_1_n_n.contr.Idx) :
    (dot_S1600000x128_S128x1_S1600000x1_1_0_0_1_n_n.lhsIdx i q 0).val = (i 0).val := by
  unfold DotDims.lhsIdx
  rw [dif_neg (show ¬(0 : Fin S1600000x128.rank) ∈ dot_S1600000x128_S128x1_S1600000x1_1_0_0_1_n_n.lhsBatch by decide), dif_pos (show (0 : Fin S1600000x128.rank) ∈ dot_S1600000x128_S128x1_S1600000x1_1_0_0_1_n_n.lhsNonContracting by decide)]
  rfl
/-- The left index of the scorer's product has the contraction's coordinate as its column. -/
private theorem scoreDot_lhs_contr (i : S1600000x1.Idx) (q : dot_S1600000x128_S128x1_S1600000x1_1_0_0_1_n_n.contr.Idx) :
    (dot_S1600000x128_S128x1_S1600000x1_1_0_0_1_n_n.lhsIdx i q 1).val = (q ⟨0, by decide⟩).val :=
  dot_S1600000x128_S128x1_S1600000x1_1_0_0_1_n_n.lhsIdx_val_of_single rfl i q
/-- The right index of the scorer's product has the contraction's coordinate as its row. -/
private theorem scoreDot_rhs_contr (i : S1600000x1.Idx) (q : dot_S1600000x128_S128x1_S1600000x1_1_0_0_1_n_n.contr.Idx) :
    (dot_S1600000x128_S128x1_S1600000x1_1_0_0_1_n_n.rhsIdx i q 0).val = (q ⟨0, by decide⟩).val :=
  dot_S1600000x128_S128x1_S1600000x1_1_0_0_1_n_n.rhsIdx_val_of_single rfl i q
/-- The right index of the scorer's product has the output's column. -/
private theorem scoreDot_rhs_col (i : S1600000x1.Idx) (q : dot_S1600000x128_S128x1_S1600000x1_1_0_0_1_n_n.contr.Idx) :
    (dot_S1600000x128_S128x1_S1600000x1_1_0_0_1_n_n.rhsIdx i q 1).val = (i 1).val := by
  unfold DotDims.rhsIdx
  rw [dif_neg (show ¬(1 : Fin S128x1.rank) ∈ dot_S1600000x128_S128x1_S1600000x1_1_0_0_1_n_n.rhsBatch by decide), dif_pos (show (1 : Fin S128x1.rank) ∈ dot_S1600000x128_S128x1_S1600000x1_1_0_0_1_n_n.rhsNonContracting by decide)]
  rfl

/-- The scorer's product at row p of its one column: the sum over the 128 contracted coordinates of the left operand's
    row p times the right operand's column. -/
private theorem scoreDot_apply (y0 : FVec Ideal S1600000x128 .f32) (y1 : FVec Ideal S128x1 .f32) (p : Fin 1600000) (u : Fin 1) :
    Host.dotGeneral dot_S1600000x128_S128x1_S1600000x1_1_0_0_1_n_n none y0 y1 (ix2 p u) = ∑ k : Fin 128, y0 (ix2 p k) * y1 (ix2 k u) := by
  simp only [Host.dotGeneral]
  rw [Ideal.dotGeneral_apply, ← Equiv.sum_comp (ValueIdx.contrEquiv1 dot_S1600000x128_S128x1_S1600000x1_1_0_0_1_n_n 128 rfl rfl).symm]
  refine Finset.sum_congr rfl fun k _ => ?_
  have hk := ValueIdx.contrEquiv1_symm_val dot_S1600000x128_S128x1_S1600000x1_1_0_0_1_n_n 128 rfl rfl k
  have el : dot_S1600000x128_S128x1_S1600000x1_1_0_0_1_n_n.lhsIdx (ix2 p u) ((ValueIdx.contrEquiv1 dot_S1600000x128_S128x1_S1600000x1_1_0_0_1_n_n 128 rfl rfl).symm k) = ix2 p k := funext fun a => Fin.ext (by
    match a with
    | ⟨0, _⟩ => exact scoreDot_lhs_row _ _
    | ⟨1, _⟩ => exact (scoreDot_lhs_contr _ _).trans hk)
  have er : dot_S1600000x128_S128x1_S1600000x1_1_0_0_1_n_n.rhsIdx (ix2 p u) ((ValueIdx.contrEquiv1 dot_S1600000x128_S128x1_S1600000x1_1_0_0_1_n_n 128 rfl rfl).symm k) = ix2 k u := funext fun a => Fin.ext (by
    match a with
    | ⟨0, _⟩ => exact (scoreDot_rhs_contr _ _).trans hk
    | ⟨1, _⟩ => exact scoreDot_rhs_col _ _)
  rw [el, er]

/-! ## The spread biases and the spread zero at an entry -/

/-- The stage's bias, made a one-row matrix and then spread over the rows, reads at (p, q) the bias's entry q: the row
    axis of the one-row matrix has extent one, the column axis follows the output's column. -/
private theorem stageBias_apply (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  refine (broadcastInDim_apply _ bcast_S1x64_S100000x64_0_1 (broadcastInDim S1x64 ![1] bcast_S64_S1x64_1 b) (ix2 p q)
    (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The scorer's one-entry bias, made a one-by-one matrix and then spread over the rows, reads that entry everywhere. -/
private theorem scoreBias_apply (blin : FVec Ideal S1 .f32) (p : Fin 1600000) (u : Fin 1) :
    broadcastInDim S1600000x1 ![0, 1] bcast_S1x1_S1600000x1_0_1 (broadcastInDim S1x1 ![1] bcast_S1_S1x1_1 blin) (ix2 p u)
      = blin (ix1 (0 : Fin 1)) := by
  refine (broadcastInDim_apply _ bcast_S1x1_S1600000x1_0_1 (broadcastInDim S1x1 ![1] bcast_S1_S1x1_1 blin) (ix2 p u)
    (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else u.val; rw [if_pos rfl])).trans ?_
  exact broadcastInDim_apply _ bcast_S1_S1x1_1 blin (ix2 (0 : Fin 1) (0 : Fin 1)) (ix1 (0 : Fin 1)) (fun a => match a with
    | ⟨0, _⟩ => by show 0 = if (1 : Nat) = 1 then 0 else 0; rw [if_pos rfl])

/-- The zero the stage is clamped at, spread from a scalar, reads at every entry the float word's value, which is kept
    as that word. -/
private theorem stageZero_apply (p : Fin 100000) (q : Fin 64) :
    broadcastInDim S100000x64 ![] bcast_S_S100000x64 (constant (F := Ideal) S_ .f32 0x00000000#32) (ix2 p q)
      = Ideal.ofBits .f32 0x00000000#32 :=
  (broadcastInDim_apply _ bcast_S_S100000x64 (constant (F := Ideal) S_ .f32 0x00000000#32) (ix2 p q) ix0
    (fun a => a.elim0)).trans (constant_apply _ _)

/-! ## The transposed weights at an entry -/

/-- A stage's weight, transposed, reads at (k, q) the weight's entry (q, k). -/
private theorem stageWeightT_apply (w : FVec Ideal S64x64 .f32) (k q : Fin 64) :
    transpose S64x64 [1, 0] w transposes_S64x64_S64x64_1_0 (ix2 k q) = w (ix2 q k) :=
  transpose_ix2_apply w transposes_S64x64_S64x64_1_0 k q

/-- The scorer's weight row, transposed to a column, reads at (k, u) the row's entry k: the column's one coordinate is
    zero. -/
private theorem scoreWeightT_apply (w : FVec Ideal S1x128 .f32) (k : Fin 128) (u : Fin 1) :
    transpose S128x1 [1, 0] w transposes_S1x128_S128x1_1_0 (ix2 k u) = w (ix2 (0 : Fin 1) k) :=
  (transpose_ix2_apply w transposes_S1x128_S128x1_1_0 k u).trans
    (congrArg (fun v : Fin 1 => w (ix2 v k)) (Fin.fin_one_eq_zero u))

/-! ## Each product with its transposed weight at an entry -/

/-- A stage's rows times a transposed weight, at (p, q): row p of the rows against ROW q of the weight. -/
private theorem stageDotT_apply (y : FVec Ideal S100000x64 .f32) (w : FVec Ideal S64x64 .f32) (p : Fin 100000) (q : Fin 64) :
    Host.dotGeneral dot_S100000x64_S64x64_S100000x64_1_0_0_1_n_n none y (transpose S64x64 [1, 0] w transposes_S64x64_S64x64_1_0) (ix2 p q)
      = ∑ k : Fin 64, y (ix2 p k) * w (ix2 q k) :=
  (stageDot_apply y _ p q).trans
    (Finset.sum_congr rfl fun k _ => congrArg (fun t => y (ix2 p k) * t) (stageWeightT_apply w k q))

/-- The scorer's rows times its transposed weight row, at row p: row p of the rows against the weight row. -/
private theorem scoreDotT_apply (y : FVec Ideal S1600000x128 .f32) (w : FVec Ideal S1x128 .f32) (p : Fin 1600000) (u : Fin 1) :
    Host.dotGeneral dot_S1600000x128_S128x1_S1600000x1_1_0_0_1_n_n none y (transpose S128x1 [1, 0] w transposes_S1x128_S128x1_1_0) (ix2 p u)
      = ∑ k : Fin 128, y (ix2 p k) * w (ix2 (0 : Fin 1) k) :=
  (scoreDot_apply y _ p u).trans
    (Finset.sum_congr rfl fun k _ => congrArg (fun t => y (ix2 p k) * t) (scoreWeightT_apply w k u))

/-- The stage at node p, channel q. -/
theorem dense_apply (mean x : FVec Ideal S100000x64 .f32) (wl : FVec Ideal S64x64 .f32) (b : FVec Ideal S64 .f32)
    (wr : FVec Ideal S64x64 .f32) (p : Fin 100000) (q : Fin 64) :
    dense mean x wl b wr (ix2 p q)
      = sageCell (fun k => mean (ix2 p k)) (fun k => x (ix2 p k)) (fun k => wl (ix2 q k)) (fun k => wr (ix2 q k))
          (b (ix1 q)) := by
  unfold dense sageCell
  rw [maximumf_apply, addf_apply, addf_apply, stageZero_apply, stageBias_apply, stageDotT_apply, stageDotT_apply]

/-- The scorer at edge p. -/
theorem scoreRef_apply (he : FVec Ideal S1600000x128 .f32) (wlin : FVec Ideal S1x128 .f32) (blin : FVec Ideal S1 .f32)
    (p : Fin 1600000) (u : Fin 1) :
    scoreRef he wlin blin (ix2 p u)
      = scoreCell (fun k => he (ix2 p k)) (fun k => wlin (ix2 (0 : Fin 1) k)) (blin (ix1 (0 : Fin 1))) := by
  unfold scoreRef scoreCell
  rw [addf_apply, scoreBias_apply, scoreDotT_apply]

end Cert.Sage

end
-- ==== Proof.HostFns.lean ====
/-
  The host stretches both programs share, each named once as a function of what it reads.

  Both programs slice the edge list into its source row and its destination row; gather node rows by the source
  index (a negative index wrapped once by the node count, as array indexing does), scatter-add them onto the
  destination nodes, count the edges arriving at each node the same way, and divide the sums by the counts clamped
  below at one: the neighbourhood mean. Before the scorer they gather the hidden rows by both wrapped index rows and
  lay the two side by side. These chains are the SAME operations in the two programs, so the comparison never opens
  them: it names them (`meanAgg`, `edgeFeat`) and only shows that the values going in agree. A layer is the mean
  aggregation followed by the dense stage; the network is two layers and the scorer, flattened to one entry per edge.
-/
import proofs.«123464_j7816840478969_1_alg».proof.ReferenceIdeal
import proofs.«123464_j7816840478969_1_alg».proof.Proof.Gen.ReferenceIdeal
import proofs.«123464_j7816840478969_1_alg».proof.Proof.RefDense

noncomputable section

namespace Cert.Sage

open Cert.ReferenceIdeal Cert.ReferenceIdeal.Facts₀ Idealize.ShloMosaic

/-- One row of the edge list, as a vector of node indices. -/
abbrev EdgeRow : Type := IVec S1600000 32
/-- The edge list: row 0 the sources, row 1 the destinations. -/
abbrev EdgeList : Type := IVec S2x1600000 32
/-- An array of one feature row per node. -/
abbrev NodeArr : Type := FVec Ideal S100000x64 .f32

/-- The source row of the edge list. -/
def srcRow (ei : EdgeList) : EdgeRow :=
  shapeCast _ (extractStridedSlice S1x1600000 ![0, 0] ei slices_S2x1600000_S1x1600000_0_0) shapeCasts_S1x1600000_S1600000

/-- The destination row of the edge list. -/
def dstRow (ei : EdgeList) : EdgeRow :=
  shapeCast _ (extractStridedSlice S1x1600000 ![1, 0] ei slices_S2x1600000_S1x1600000_1_0) shapeCasts_S1x1600000_S1600000

/-- An index row made ready for a gather: a negative index has the node count added once; laid out as a column. -/
def wrapCol (s : EdgeRow) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- An index row as the column a scatter takes. -/
def idxCol (d : EdgeRow) : IVec S1600000x1 32 :=
  broadcastInDim S1600000x1 ![0] bcast_S1600000_S1600000x1_0 d

/-- The node rows gathered along an index row. -/
def gatherRows (x : NodeArr) (s : EdgeRow) : FVec Ideal S1600000x64 .f32 :=
  Host.gather gather_S100000x64_S1600000x1_S1600000x64_1_0_n_n_0_1_164 x (wrapCol s)

/-- The neighbourhood mean: the rows gathered at the sources, summed onto the destinations, over the in-degree
    clamped below at one. -/
def meanAgg (x : NodeArr) (s d : EdgeRow) : NodeArr :=
  Host.divf (F := Ideal)
    (Host.scatterAdd (F := Ideal) scatter_S100000x64_S1600000x1_S1600000x64_1_0_0_1
      (broadcastInDim S100000x64 ![] bcast_S_S100000x64 (constant (F := Ideal) S_ .f32 0x00000000#32)) (idxCol d) (gatherRows x s))
    (broadcastInDim S100000x64 ![0, 1] bcast_S100000x1_S100000x64_0_1
      (broadcastInDim S100000x1 ![0] bcast_S100000_S100000x1_0
        (maximumf
          (Host.scatterAdd (F := Ideal) scatter_S100000_S1600000x1_S1600000_n_0_0_1
            (broadcastInDim S100000 ![] bcast_S_S100000 (constant (F := Ideal) S_ .f32 0x00000000#32)) (idxCol d)
            (broadcastInDim S1600000 ![] bcast_S_S1600000 (constant (F := Ideal) S_ .f32 0x3F800000#32)))
          (broadcastInDim S100000 ![] bcast_S_S100000 (constant (F := Ideal) S_ .f32 0x3F800000#32)))))

/-- The scorer's operand: per edge, the hidden row of its source beside the hidden row of its destination. -/
def edgeFeat (h : NodeArr) (s d : EdgeRow) : FVec Ideal S1600000x128 .f32 :=
  concatenate S1600000x128 1 [⟨S1600000x64, gatherRows h s⟩, ⟨S1600000x64, gatherRows h d⟩]
    concatenates_S1600000x64_S1600000x64_S1600000x128_d1

/-- One GraphSAGE layer: aggregate, then the dense stage. -/
def layer (x : NodeArr) (s d : EdgeRow) (wl : FVec Ideal S64x64 .f32) (b : FVec Ideal S64 .f32)
    (wr : FVec Ideal S64x64 .f32) : NodeArr :=
  dense (meanAgg x s d) x wl b wr

/-- The whole network: two layers, the edge features, the scorer, one entry per edge. -/
def network (x : NodeArr) (ei : EdgeList) (w1l : FVec Ideal S64x64 .f32) (b1l : FVec Ideal S64 .f32)
    (w1r w2l : FVec Ideal S64x64 .f32) (b2l : FVec Ideal S64 .f32) (w2r : FVec Ideal S64x64 .f32)
    (wlin : FVec Ideal S1x128 .f32) (blin : FVec Ideal S1 .f32) : FVec Ideal S1600000 .f32 :=
  shapeCast _
    (scoreRef
      (edgeFeat (layer (layer x (srcRow ei) (dstRow ei) w1l b1l w1r) (srcRow ei) (dstRow ei) w2l b2l w2r)
        (srcRow ei) (dstRow ei))
      wlin blin)
    shapeCasts_S1600000x1_S1600000

end Cert.Sage

end
-- ==== Proof.KValue.lean ====
/-
  The kernel program's result, followed through @main from the launch to the return.

  The buffer contents at each boundary of @main are a fold: a host stretch applies its operations to what it finds, a
  kernel region replaces its output array by the whole-array function of the arrays it read (KBlocks0 … KBlocks2) and
  leaves every other buffer alone. Reading the fold at the buffers each step consumes gives, in order: the source and
  destination rows of the edge list and the first neighbourhood mean; the first hidden array; the second mean (over the
  SAME two index rows, which no region overwrites); the second hidden array; the edge features; the score column; and
  its flattening, the result. The shared host chains appear only by name (HostFns.lean).
-/
import proofs.«123464_j7816840478969_1_alg».proof.Proof.Gen.KernelIdeal.Frame
import proofs.«123464_j7816840478969_1_alg».proof.Proof.KBlocks0
import proofs.«123464_j7816840478969_1_alg».proof.Proof.KBlocks1
import proofs.«123464_j7816840478969_1_alg».proof.Proof.KBlocks2
import proofs.«123464_j7816840478969_1_alg».proof.Proof.HostFns
import Idealize.ShloMosaic.Lib.StableHlo.Run

set_option maxRecDepth 16384

noncomputable section

namespace Cert.KernelIdeal.Chain

open Cert.KernelIdeal Cert.KernelIdeal.Gen Cert.KernelIdeal.Arr Cert.KernelIdeal.Blocks Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region -/

theorem w1_src : W1 m ρ c (Proc.devRef .tc main_v1) = srcRow (m ((c : Thread nD τ).loc main_arg1)) := by
  show StableHlo.after hostOps0 (W0 m ρ c) (Proc.devRef .tc main_v1) = _
  after_results_simp <;> rfl
theorem w1_dst : W1 m ρ c (Proc.devRef .tc main_v3) = dstRow (m ((c : Thread nD τ).loc main_arg1)) := by
  show StableHlo.after hostOps0 (W0 m ρ c) (Proc.devRef .tc main_v3) = _
  after_results_simp <;> rfl
/-- The first neighbourhood mean, of the node features. -/
theorem w1_mean : W1 m ρ c (Proc.devRef .tc main_v22)
    = meanAgg (m ((c : Thread nD τ).loc main_arg0)) (srcRow (m ((c : Thread nD τ).loc main_arg1))) (dstRow (m ((c : Thread nD τ).loc main_arg1))) := by
  show StableHlo.after hostOps0 (W0 m ρ c) (Proc.devRef .tc main_v22) = _
  after_results_simp <;> rfl
/-- The first bias as a row. -/
theorem w1_bias : W1 m ρ c (Proc.devRef .tc main_v23) = shapeCast _ (m ((c : Thread nD τ).loc main_arg3)) Facts₀.shapeCasts_S64_S1x64 := by
  show StableHlo.after hostOps0 (W0 m ρ c) (Proc.devRef .tc main_v23) = _
  after_results_simp <;> rfl
theorem w1_arg0 : W1 m ρ c (Proc.devRef .tc main_arg0) = m ((c : Thread nD τ).loc main_arg0) := by
  show StableHlo.after hostOps0 (W0 m ρ c) (Proc.devRef .tc main_arg0) = _
  after_results_simp <;> rfl
theorem w1_arg2 : W1 m ρ c (Proc.devRef .tc main_arg2) = m ((c : Thread nD τ).loc main_arg2) := by
  show StableHlo.after hostOps0 (W0 m ρ c) (Proc.devRef .tc main_arg2) = _
  after_results_simp <;> rfl
theorem w1_arg4 : W1 m ρ c (Proc.devRef .tc main_arg4) = m ((c : Thread nD τ).loc main_arg4) := by
  show StableHlo.after hostOps0 (W0 m ρ c) (Proc.devRef .tc main_arg4) = _
  after_results_simp <;> rfl
theorem w1_arg5 : W1 m ρ c (Proc.devRef .tc main_arg5) = m ((c : Thread nD τ).loc main_arg5) := by
  show StableHlo.after hostOps0 (W0 m ρ c) (Proc.devRef .tc main_arg5) = _
  after_results_simp <;> rfl
theorem w1_arg6 : W1 m ρ c (Proc.devRef .tc main_arg6) = m ((c : Thread nD τ).loc main_arg6) := by
  show StableHlo.after hostOps0 (W0 m ρ c) (Proc.devRef .tc main_arg6) = _
  after_results_simp <;> rfl
theorem w1_arg7 : W1 m ρ c (Proc.devRef .tc main_arg7) = m ((c : Thread nD τ).loc main_arg7) := by
  show StableHlo.after hostOps0 (W0 m ρ c) (Proc.devRef .tc main_arg7) = _
  after_results_simp <;> rfl
theorem w1_arg8 : W1 m ρ c (Proc.devRef .tc main_arg8) = m ((c : Thread nD τ).loc main_arg8) := by
  show StableHlo.after hostOps0 (W0 m ρ c) (Proc.devRef .tc main_arg8) = _
  after_results_simp <;> rfl
theorem w1_arg9 : W1 m ρ c (Proc.devRef .tc main_arg9) = m ((c : Thread nD τ).loc main_arg9) := by
  show StableHlo.after hostOps0 (W0 m ρ c) (Proc.devRef .tc main_arg9) = _
  after_results_simp <;> rfl

/-! ## After the first region -/

/-- The first hidden array. -/
theorem w2_hidden : W2 m ρ c (Proc.devRef .tc main_v24)
    = denseArr (W1 m ρ c (Proc.devRef .tc main_v22)) (W1 m ρ c (Proc.devRef .tc main_arg0)) (W1 m ρ c (Proc.devRef .tc main_arg2))
        (W1 m ρ c (Proc.devRef .tc main_v23)) (W1 m ρ c (Proc.devRef .tc main_arg4)) :=
  (W2_arr m ρ c 5).trans (final0 (V1 m ρ) c)
theorem w2_v1 : W2 m ρ c (Proc.devRef .tc main_v1) = W1 m ρ c (Proc.devRef .tc main_v1) := by
  exact W2_of_ne m ρ c main_v1 (by decide)
theorem w2_v3 : W2 m ρ c (Proc.devRef .tc main_v3) = W1 m ρ c (Proc.devRef .tc main_v3) := by
  exact W2_of_ne m ρ c main_v3 (by decide)
theorem w2_arg5 : W2 m ρ c (Proc.devRef .tc main_arg5) = W1 m ρ c (Proc.devRef .tc main_arg5) := by
  exact W2_of_ne m ρ c main_arg5 (by decide)
theorem w2_arg6 : W2 m ρ c (Proc.devRef .tc main_arg6) = W1 m ρ c (Proc.devRef .tc main_arg6) := by
  exact W2_of_ne m ρ c main_arg6 (by decide)
theorem w2_arg7 : W2 m ρ c (Proc.devRef .tc main_arg7) = W1 m ρ c (Proc.devRef .tc main_arg7) := by
  exact W2_of_ne m ρ c main_arg7 (by decide)
theorem w2_arg8 : W2 m ρ c (Proc.devRef .tc main_arg8) = W1 m ρ c (Proc.devRef .tc main_arg8) := by
  exact W2_of_ne m ρ c main_arg8 (by decide)
theorem w2_arg9 : W2 m ρ c (Proc.devRef .tc main_arg9) = W1 m ρ c (Proc.devRef .tc main_arg9) := by
  exact W2_of_ne m ρ c main_arg9 (by decide)

/-! ## Before the second region -/

/-- The second neighbourhood mean, of the first hidden array, over the same index rows. -/
theorem w3_mean : W3 m ρ c (Proc.devRef .tc main_v43)
    = meanAgg (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp <;> rfl
theorem w3_bias : W3 m ρ c (Proc.devRef .tc main_v44) = shapeCast _ (W2 m ρ c (Proc.devRef .tc main_arg6)) Facts₀.shapeCasts_S64_S1x64 := by
  show StableHlo.after hostOps1 (W2 m ρ c) (Proc.devRef .tc main_v44) = _
  after_results_simp <;> rfl
theorem w3_v24 : W3 m ρ c (Proc.devRef .tc main_v24) = W2 m ρ c (Proc.devRef .tc main_v24) := by
  show StableHlo.after hostOps1 (W2 m ρ c) (Proc.devRef .tc main_v24) = _
  after_results_simp <;> rfl
theorem w3_v1 : W3 m ρ c (Proc.devRef .tc main_v1) = W2 m ρ c (Proc.devRef .tc main_v1) := by
  show StableHlo.after hostOps1 (W2 m ρ c) (Proc.devRef .tc main_v1) = _
  after_results_simp <;> rfl
theorem w3_v3 : W3 m ρ c (Proc.devRef .tc main_v3) = W2 m ρ c (Proc.devRef .tc main_v3) := by
  show StableHlo.after hostOps1 (W2 m ρ c) (Proc.devRef .tc main_v3) = _
  after_results_simp <;> rfl
theorem w3_arg5 : W3 m ρ c (Proc.devRef .tc main_arg5) = W2 m ρ c (Proc.devRef .tc main_arg5) := by
  show StableHlo.after hostOps1 (W2 m ρ c) (Proc.devRef .tc main_arg5) = _
  after_results_simp <;> rfl
theorem w3_arg7 : W3 m ρ c (Proc.devRef .tc main_arg7) = W2 m ρ c (Proc.devRef .tc main_arg7) := by
  show StableHlo.after hostOps1 (W2 m ρ c) (Proc.devRef .tc main_arg7) = _
  after_results_simp <;> rfl
theorem w3_arg8 : W3 m ρ c (Proc.devRef .tc main_arg8) = W2 m ρ c (Proc.devRef .tc main_arg8) := by
  show StableHlo.after hostOps1 (W2 m ρ c) (Proc.devRef .tc main_arg8) = _
  after_results_simp <;> rfl
theorem w3_arg9 : W3 m ρ c (Proc.devRef .tc main_arg9) = W2 m ρ c (Proc.devRef .tc main_arg9) := by
  show StableHlo.after hostOps1 (W2 m ρ c) (Proc.devRef .tc main_arg9) = _
  after_results_simp <;> rfl

/-! ## After the second region -/

/-- The second hidden array. -/
theorem w4_hidden : W4 m ρ c (Proc.devRef .tc main_v45)
    = denseArr (W3 m ρ c (Proc.devRef .tc main_v43)) (W3 m ρ c (Proc.devRef .tc main_v24)) (W3 m ρ c (Proc.devRef .tc main_arg5))
        (W3 m ρ c (Proc.devRef .tc main_v44)) (W3 m ρ c (Proc.devRef .tc main_arg7)) :=
  (W4_arr m ρ c 5).trans (final1 (V3 m ρ) c)
theorem w4_v1 : W4 m ρ c (Proc.devRef .tc main_v1) = W3 m ρ c (Proc.devRef .tc main_v1) := by
  exact W4_of_ne m ρ c main_v1 (by decide)
theorem w4_v3 : W4 m ρ c (Proc.devRef .tc main_v3) = W3 m ρ c (Proc.devRef .tc main_v3) := by
  exact W4_of_ne m ρ c main_v3 (by decide)
theorem w4_arg8 : W4 m ρ c (Proc.devRef .tc main_arg8) = W3 m ρ c (Proc.devRef .tc main_arg8) := by
  exact W4_of_ne m ρ c main_arg8 (by decide)
theorem w4_arg9 : W4 m ρ c (Proc.devRef .tc main_arg9) = W3 m ρ c (Proc.devRef .tc main_arg9) := by
  exact W4_of_ne m ρ c main_arg9 (by decide)

/-! ## Before the scorer -/

set_option maxHeartbeats 1000000 in
/-- The edge features of the second hidden array. (The two gathered arrays sit inside the list the concatenation
    takes, so the stretch is read one operation at a time.) -/
theorem w5_feat : W5 m ρ c (Proc.devRef .tc main_v60)
    = edgeFeat (W4 m ρ c (Proc.devRef .tc main_v45)) (W4 m ρ c (Proc.devRef .tc main_v1)) (W4 m ρ c (Proc.devRef .tc main_v3)) := by
  show StableHlo.after hostOps2 (W4 m ρ c) (Proc.devRef .tc main_v60) = _
  after_results
  rfl
theorem w5_bias : W5 m ρ c (Proc.devRef .tc main_v61) = shapeCast _ (W4 m ρ c (Proc.devRef .tc main_arg9)) Facts₀.shapeCasts_S1_S1x1 := by
  show StableHlo.after hostOps2 (W4 m ρ c) (Proc.devRef .tc main_v61) = _
  after_results_simp <;> rfl
theorem w5_arg8 : W5 m ρ c (Proc.devRef .tc main_arg8) = W4 m ρ c (Proc.devRef .tc main_arg8) := by
  show StableHlo.after hostOps2 (W4 m ρ c) (Proc.devRef .tc main_arg8) = _
  after_results_simp <;> rfl

/-! ## The scorer and the return -/

/-- The score column. -/
theorem w6_score : W6 m ρ c (Proc.devRef .tc main_v62)
    = scoreArr (W5 m ρ c (Proc.devRef .tc main_v60)) (W5 m ρ c (Proc.devRef .tc main_arg8)) (W5 m ρ c (Proc.devRef .tc main_v61)) :=
  (W6_arr m ρ c 3).trans (final2 (V5 m ρ) c)
/-- The result: the score column as a vector. -/
theorem w7_result : W7 m ρ c (Proc.devRef .tc main_v63) = shapeCast _ (W6 m ρ c (Proc.devRef .tc main_v62)) Facts₀.shapeCasts_S1600000x1_S1600000 := by
  show StableHlo.after hostOps3 (W6 m ρ c) (Proc.devRef .tc main_v63) = _
  after_results_simp <;> rfl

end Cert.KernelIdeal.Chain

end
-- ==== Proof.Bridge.lean ====
/-
  The kernel's regions and the reference's dense stages are the same functions.

  Index by index both are the cell of Cells.lean over the same rows: the kernel's product against a transposed
  weight block and the host's product against the transposed weight array both read row q of the weight for output
  channel q, and a sum over the contracted axis does not care how the rows were tiled. The one difference in what
  they are GIVEN is the bias: the kernel program reshapes the bias vector to a one-row matrix before the call, the
  reference spreads the vector directly; entry (0, q) of the reshaped row is entry q of the vector.
-/
import proofs.«123464_j7816840478969_1_alg».proof.Proof.KArr
import proofs.«123464_j7816840478969_1_alg».proof.Proof.RefDense
import Idealize.ShloMosaic.Lib.ValueIdx
import Idealize.ShloMosaic.Lib.ValueLayout

noncomputable section

namespace Cert.Sage

open Idealize.ShloMosaic Idealize.ShloMosaic.ValueIdx Cert.KernelIdeal.Arr

/-- A GraphSAGE stage: the kernel region's array, fed the bias as a reshaped row, is the reference's stage. -/
theorem denseArr_eq_dense (mean x : FVec Ideal Cert.ReferenceIdeal.S100000x64 .f32) (wl : FVec Ideal Cert.ReferenceIdeal.S64x64 .f32)
    (b : FVec Ideal Cert.ReferenceIdeal.S64 .f32) (wr : FVec Ideal Cert.ReferenceIdeal.S64x64 .f32)
    (h : Cert.KernelIdeal.S64.ShapeCasts Cert.KernelIdeal.S1x64) :
    denseArr mean x wl (shapeCast Cert.KernelIdeal.S1x64 b h) wr = dense mean x wl b wr := by
  funext i
  obtain ⟨p, q, rfl⟩ : ∃ (p : Fin 100000) (q : Fin 64), i = ix2 p q := ⟨i 0, i 1, eq_ix2 i⟩
  rw [dense_apply]
  show sageCell (fun k => mean (ix2 p k)) (fun k => x (ix2 p k)) (fun k => wl (ix2 q k)) (fun k => wr (ix2 q k))
      (shapeCast Cert.KernelIdeal.S1x64 b h (ix2 (0 : Fin 1) q)) = _
  rw [shapeCast_a_1a_apply]

/-- The scorer: the kernel region's column, fed the bias as a reshaped 1×1 matrix, is the reference's column. -/
theorem scoreArr_eq_scoreRef (he : FVec Ideal Cert.ReferenceIdeal.S1600000x128 .f32) (w : FVec Ideal Cert.ReferenceIdeal.S1x128 .f32)
    (blin : FVec Ideal Cert.ReferenceIdeal.S1 .f32) (h : Cert.KernelIdeal.S1.ShapeCasts Cert.KernelIdeal.S1x1) :
    scoreArr he w (shapeCast Cert.KernelIdeal.S1x1 blin h) = scoreRef he w blin := by
  funext i
  obtain ⟨p, u, rfl⟩ : ∃ (p : Fin 1600000) (u : Fin 1), i = ix2 p u := ⟨i 0, i 1, eq_ix2 i⟩
  rw [scoreRef_apply]
  show scoreCell (fun k => he (ix2 p k)) (fun k => w (ix2 (0 : Fin 1) k))
      (shapeCast Cert.KernelIdeal.S1x1 blin h (ix2 (0 : Fin 1) (0 : Fin 1))) = _
  rw [shapeCast_a_1a_apply]

end Cert.Sage

end
-- ==== Proof.KResult.lean ====
/-
  The kernel program's result is the network of HostFns.lean applied to the launch arguments.

  Substituting the boundary facts of KValue.lean into one another, outermost first, leaves the result as the
  flattened score column of the edge features of the second hidden array, each hidden array a region's whole-array
  function of a neighbourhood mean; the two stages and the scorer are then the reference's (Bridge.lean), and what
  remains is the network's definition.
-/
import proofs.«123464_j7816840478969_1_alg».proof.Proof.KValue
import proofs.«123464_j7816840478969_1_alg».proof.Proof.Bridge

set_option maxRecDepth 16384

noncomputable section

namespace Cert.KernelIdeal.Chain

open Cert.KernelIdeal Cert.KernelIdeal.Gen Cert.KernelIdeal.Arr Cert.Sage
open Idealize.ShloMosaic Idealize.ShloMosaic.TcCoe Idealize.SL.Sem

variable (m : (ℓ : Loc nD τ sig) → Buf (Elt Ideal) ℓ) (ρ : Dev nD → PrngReg) (c : Dev nD)

/-- What the kernel program returns, as one function of its arguments. -/
theorem kernel_result : W7 m ρ c (Proc.devRef .tc main_v63)
    = network (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) := by
  rw [w7_result, w6_score]
  rw [w5_feat, w5_arg8, w5_bias]
  rw [w4_hidden, w4_v1, w4_v3, w4_arg8, w4_arg9]
  rw [w3_mean, w3_v24, w3_arg5, w3_bias, w3_arg7, w3_v1, w3_v3, w3_arg8, w3_arg9]
  rw [w2_hidden, w2_v1, w2_v3, w2_arg5, w2_arg6, w2_arg7, w2_arg8, w2_arg9]
  rw [w1_mean, w1_arg0, w1_arg2, w1_bias, w1_arg4, w1_src, w1_dst, w1_arg5, w1_arg6, w1_arg7, w1_arg8, w1_arg9]
  rw [denseArr_eq_dense, denseArr_eq_dense, scoreArr_eq_scoreRef]
  rfl

end Cert.KernelIdeal.Chain

end
-- ==== Proof.RResult.lean ====
/-
  The reference program's result is the network of HostFns.lean applied to its arguments.

  The reference is one straight line of host operations, and its run reads the result back as the operations'
  composed term of the arguments. That term IS the network: two layers (mean aggregation, then the dense stage), the
  edge features, the scorer and the flattening, with every shared subterm written out where it is used. Nothing is
  computed here: naming the pieces and unfolding the names gives the same term.
-/
import proofs.«123464_j7816840478969_1_alg».proof.Proof.Gen.ReferenceIdeal.Run
import proofs.«123464_j7816840478969_1_alg».proof.Proof.HostFns

set_option maxRecDepth 16384

noncomputable section

namespace Cert.Sage

open Idealize.ShloMosaic Idealize.ShloMosaic.TcCoe Idealize.SL.Sem

/-- What the reference program returns, as one function of its arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v80 (F := Ideal) m c
      = network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) := by
  unfold Cert.ReferenceIdeal.Value.res_main_v80 network layer edgeFeat gatherRows meanAgg idxCol wrapCol srcRow dstRow scoreRef dense
  rfl

end Cert.Sage

end
-- ==== Proof.lean ====
/-
  The certificate of a two-layer GraphSAGE edge scorer.

  Both programs compute, for every edge, a linear score of the concatenated hidden rows of its two end nodes, the
  hidden rows coming from two GraphSAGE layers: each layer averages the rows of a node's in-neighbours (a gather by
  the source index and a scatter-add onto the destination index, over the in-degree clamped below at one) and applies
  `max (mean · Wlᵀ + b + x · Wrᵀ) 0`. The kernel program keeps the gathers and scatters on the host and runs the three
  dense stages as row-blocked kernels with bf16 operands; the reference is one line of host operations.

  Over the extended reals a change of float format is the identity, so each kernel region's output array is the
  reference's dense stage of the arrays it reads (KPay, KBlocks0 … KBlocks2, RefDense, Bridge: both are the same finite
  sums, the blocks a restriction to a range of rows). The host stretches around the regions are the SAME operations in
  the two programs and are carried by name (HostFns), so following the kernel program's buffers from the launch to the
  return (KValue, KResult) and unfolding the reference's composed term (RResult) give one and the same function of the
  arguments. No algebraic law beyond this is used, and the finiteness of the inputs is never needed.
  The frames of the two kernel programs are the generated ones; the reference's frame is its generated run with the
  result dropped; the idealization rewrote nothing, so `preserves` is trivial.
-/
import proofs.«123464_j7816840478969_1_alg».proof.Defs
import proofs.«123464_j7816840478969_1_alg».proof.Proof.Gen.Kernel
import proofs.«123464_j7816840478969_1_alg».proof.Proof.Gen.Kernel.Skeleton
import proofs.«123464_j7816840478969_1_alg».proof.Proof.Gen.Kernel.Launch
import proofs.«123464_j7816840478969_1_alg».proof.Proof.Gen.Kernel.Points
import proofs.«123464_j7816840478969_1_alg».proof.Proof.Gen.Kernel.Frame
import proofs.«123464_j7816840478969_1_alg».proof.Proof.Gen.KernelIdeal
import proofs.«123464_j7816840478969_1_alg».proof.Proof.Gen.KernelIdeal.Skeleton
import proofs.«123464_j7816840478969_1_alg».proof.Proof.Gen.KernelIdeal.Launch
import proofs.«123464_j7816840478969_1_alg».proof.Proof.Gen.KernelIdeal.Points
import proofs.«123464_j7816840478969_1_alg».proof.Proof.Gen.KernelIdeal.Frame
import proofs.«123464_j7816840478969_1_alg».proof.Proof.Gen.ReferenceIdeal
import proofs.«123464_j7816840478969_1_alg».proof.Proof.Gen.Pre_finite_inputs
import proofs.«123464_j7816840478969_1_alg».proof.Proof.Gen.ReferenceIdeal.Run
import proofs.«123464_j7816840478969_1_alg».proof.Proof.KRun
import proofs.«123464_j7816840478969_1_alg».proof.Proof.KResult
import proofs.«123464_j7816840478969_1_alg».proof.Proof.RResult
import Idealize.ShloMosaic.Adequacy
import Idealize.ShloMosaic.Init

set_option maxRecDepth 16384

noncomputable section

namespace Cert.Proof

open Idealize.ShloMosaic Idealize.ShloMosaic.TcCoe Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the network of those arguments in their result
    buffer: the kernel program by following its buffers through @main, the reference by unfolding its composed term. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.kernel_result m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [reference_result, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
